-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x4096 32) (main_arg2 : FVec F S4096x1 .f32) (main_arg3 : FVec F S4096x1 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .i32⟩
  | .local _ .vmem, ⟨3, _⟩ => ⟨S512x1024, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  broadcasts_S512x1_S512x1024 : S512x1.Broadcasts S512x1024
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.DequantLinear.lean ====
/-
  The one function of the five argument arrays that both programs compute: a linear layer over weights
  dequantized on the fly.

  The weight of output channel `n` at input feature `k` is the stored integer read as a signed number, shifted by the
  channel's zero point and scaled by the channel's scale,
      w n k = (q[n,k] − zero_point[n,0]) · scale[n,0],
  and the result at row `r`, channel `n` is the row's inner product with that channel's weights plus the channel's bias,
      y[r,n] = (∑ k < 4096, x[r,k] · w n k) + bias[n].

  One program forms the inner product over all 4096 features at once; the other walks the features in four
  consecutive stretches of 1024, adding each stretch's partial inner product into a running total that starts at zero.
  The two agree because a finite sum may be cut into consecutive stretches and the stretches summed one after another:
  addition of extended reals is commutative and associative (they form a commutative monoid under `+`, with
  `⊥ + ⊤ = ⊥`), and nothing else is used, so no entry has to be finite.
-/
import Idealize.ShloMosaic.PureOps.Ideal
import Idealize.ShloMosaic.Lib.ValueIdx
import Mathlib.Algebra.BigOperators.Fin
import Mathlib.Logic.Equiv.Fin.Basic

noncomputable section

open scoped BigOperators

namespace Cert.DequantLinear

open Idealize.ShloMosaic Idealize.ShloMosaic.ValueIdx

/-! ## Cutting a sum into consecutive stretches -/

/-- Position `κ` of stretch `s`, when `A · B` positions are cut into `A` consecutive stretches of `B`. -/
def inStretch {A B : ℕ} (s : Fin A) (κ : Fin B) : Fin (A * B) :=
  ⟨B * s.val + κ.val, by
    have h1 : B * s.val + κ.val < B * (s.val + 1) := by rw [Nat.mul_succ]; exact Nat.add_lt_add_left κ.isLt _
    exact lt_of_lt_of_le h1 (by rw [Nat.mul_comm A B]; exact Nat.mul_le_mul_left _ s.isLt)⟩

@[simp] theorem inStretch_val {A B : ℕ} (s : Fin A) (κ : Fin B) : (inStretch s κ).val = B * s.val + κ.val := rfl

/-- A sum over `A · B` positions is the sum, over the `A` stretches, of each stretch's own sum: every position lies in
    exactly one stretch (position `p` in stretch `p / B`, at `p % B`), and the order of the terms does not matter in a
    commutative monoid. -/
theorem sum_stretches {β : Type*} [AddCommMonoid β] (A B : ℕ) (f : Fin (A * B) → β) :
    ∑ k, f k = ∑ s : Fin A, ∑ κ : Fin B, f (inStretch s κ) := by
  rw [← (finProdFinEquiv (m := A) (n := B)).sum_comp f, Fintype.sum_prod_type]
  refine Finset.sum_congr rfl fun s _ => Finset.sum_congr rfl fun κ _ => congrArg f (Fin.ext ?_)
  show κ.val + B * s.val = B * s.val + κ.val
  exact Nat.add_comm _ _

/-- Four stretches of 1024 make up the 4096 features (the sum's length is written as the product, which it equals by
    computation). -/
theorem sum_four_stretches {β : Type*} [AddCommMonoid β] (f : Fin 4096 → β) :
    ∑ k, f k = ∑ s : Fin 4, ∑ κ : Fin 1024, f (inStretch (A := 4) (B := 1024) s κ) :=
  sum_stretches 4 1024 f

/-! ## The function both programs compute -/

/-- The dequantized weight of output channel `n` at input feature `k`: the stored integer, read signed, minus the
    channel's zero point, times the channel's scale. -/
def weight (Q : (⟨2, ![4096, 4096]⟩ : Shape).Idx → BitVec 32) (SC ZP : (⟨2, ![4096, 1]⟩ : Shape).Idx → EReal)
    (n k : Fin 4096) : EReal :=
  (FloatOps.sitofp (F := Ideal) .f32 (Q (@ix2 4096 4096 n k)) - ZP (@ix2 4096 1 n 0)) * SC (@ix2 4096 1 n 0)

/-- The layer's result: at row `r` and channel `n`, the row's inner product with the channel's dequantized weights,
    plus the channel's bias. -/
def linear (X : (⟨2, ![8192, 4096]⟩ : Shape).Idx → EReal) (Q : (⟨2, ![4096, 4096]⟩ : Shape).Idx → BitVec 32)
    (SC ZP : (⟨2, ![4096, 1]⟩ : Shape).Idx → EReal) (B : (⟨1, ![4096]⟩ : Shape).Idx → EReal) :
    (⟨2, ![8192, 4096]⟩ : Shape).Idx → EReal :=
  fun i => (∑ k : Fin 4096, X (@ix2 8192 4096 (i 0) k) * weight Q SC ZP (i 1) k) + B (@ix1 4096 (i 1))

end Cert.DequantLinear

end
-- ==== Proof.ReferenceIsLinear.lean ====
/-
  The reference computes the layer's function, entry by entry: it dequantizes the whole weight matrix, contracts the
  activations with it over all 4096 features in one product, and adds the bias broadcast over the rows.
-/
import proofs.«143903_j85804856639527_1_alg».proof.Proof.Gen.ReferenceIdeal.Read
import proofs.«143903_j85804856639527_1_alg».proof.Proof.DequantLinear

noncomputable section

open scoped BigOperators

namespace Cert.ReferenceIdeal.RefValue

open Cert.ReferenceIdeal Cert.ReferenceIdeal.Read Cert.DequantLinear Idealize.ShloMosaic Idealize.ShloMosaic.ValueIdx

/-- The product reads the activations at the result's row and the contracted feature … -/
theorem lidx_eq (i : S8192x4096.Idx) (k : Fin 4096) : lidx_main_v5 i k = @ix2 8192 4096 (i 0) k :=
  funext fun a => Fin.ext (by match a with | ⟨0, _⟩ => rfl | ⟨1, _⟩ => rfl)
/-- … and the weights at the result's channel and the contracted feature. -/
theorem ridx_eq (i : S8192x4096.Idx) (k : Fin 4096) : ridx_main_v5 i k = @ix2 4096 4096 (i 1) k :=
  funext fun a => Fin.ext (by match a with | ⟨0, _⟩ => rfl | ⟨1, _⟩ => rfl)
/-- A channel's zero point and scale sit in the one column of their arrays. -/
theorem zp_idx_eq (n k : Fin 4096) : idx_main_v1 (@ix2 4096 4096 n k) = @ix2 4096 1 n 0 :=
  funext fun a => Fin.ext (by match a with | ⟨0, _⟩ => rfl | ⟨1, _⟩ => rfl)
theorem sc_idx_eq (n k : Fin 4096) : idx_main_v3 (@ix2 4096 4096 n k) = @ix2 4096 1 n 0 :=
  funext fun a => Fin.ext (by match a with | ⟨0, _⟩ => rfl | ⟨1, _⟩ => rfl)
/-- The bias of the result's channel, through the two broadcasts. -/
theorem bias_idx_eq (i : S8192x4096.Idx) : idx_main_v6 (idx_main_v7 i) = @ix1 4096 (i 1) :=
  funext fun a => Fin.ext (by match a with | ⟨0, _⟩ => rfl)

/-- The reference's dequantized matrix, at channel `n` and feature `k`, is the layer's weight. -/
theorem weight_eq (x1 : (⟨S4096x4096, .i32⟩ : BufTy).Contents (Elt Ideal)) (x2 x3 : (⟨S4096x1, .f32⟩ : BufTy).Contents (Elt Ideal))
    (n k : Fin 4096) : val_main_v4 (F := Ideal) x1 x2 x3 (@ix2 4096 4096 n k) = weight x1 x2 x3 n k := by
  rw [val_main_v4_apply, val_main_v2_apply, val_main_v0_apply, val_main_v1_apply, val_main_v3_apply, zp_idx_eq, sc_idx_eq]
  rfl

/-- The reference's result is the layer's function of its five arguments. -/
theorem reference_eq (x0 : (⟨S8192x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S4096, .f32⟩ : BufTy).Contents (Elt Ideal)) :
    val_main_v8 (F := Ideal) x0 x1 x2 x3 x4 = linear x0 x1 x2 x3 x4 := by
  funext i
  rw [val_main_v8_apply, val_main_v5_apply, val_main_v7_apply, val_main_v6_apply, bias_idx_eq]
  show (∑ k : Fin 4096, x0 (lidx_main_v5 i k) * val_main_v4 (F := Ideal) x1 x2 x3 (ridx_main_v5 i k)) + x4 (@ix1 4096 (i 1)) = _
  unfold linear
  refine congrArg (· + x4 (@ix1 4096 (i 1))) (Finset.sum_congr rfl fun k _ => ?_)
  rw [lidx_eq, ridx_eq]
  exact congrArg (x0 (@ix2 8192 4096 (i 0) k) * ·) (weight_eq x1 x2 x3 (i 1) k)

end Cert.ReferenceIdeal.RefValue

end
-- ==== Proof.CaseValues.lean ====
/-
  What each of the body's three control cases leaves behind, as the body's own arithmetic.

  The grid's last axis walks the four feature stretches of one output block. At the first stretch (case A) the body
  zeroes the running total and then adds that stretch's product to it; at the two middle stretches (case B) it adds
  the stretch's product to the total it finds; at the last stretch (case C) it does the same and then writes the total
  plus the bias into the output block. So the total a point leaves is always "the stretch's product added to
  something" — to zeros at the first stretch, to the total of the point before otherwise — and the output block of
  a last stretch is the total that point has just formed, plus the bias row. Nothing here depends on what a float is.
-/
import proofs.«143903_j85804856639527_1_alg».proof.Proof.Gen.KernelIdeal.Frame
import Idealize.ShloMosaic.Lib.Pipeline.Value
import Idealize.ShloMosaic.Lib.Tactic

set_option maxRecDepth 16384

noncomputable section

namespace Cert.KernelIdeal.CaseValues

open Cert.KernelIdeal Cert.KernelIdeal.Gen Idealize.ShloMosaic Idealize.ShloMosaic.TcCoe Idealize.SL.Sem

variable {F : FTy → Type} [FloatOps F]

/-- Every store and load of the body starts at the origin of its buffer. -/
theorem origin2 : (![0, 0] : Fin 2 → Nat) = fun _ => 0 := funext fun a => by fin_cases a <;> rfl

/-- FIRST STRETCH: the total is reset to zeros and the stretch's product added to it. The inputs are the blocks of
    the activations, the stored integers, the scales (`x2`) and the zero points (`x3`). -/
theorem total_first (c : Dev nD) (i : grid0.Coords) (arg3 : Memref sig .tc .vmem S512x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x1024 .f32) (x1 : Vec F S512x1024 .i32) (x2 : Vec F S512x1 .f32) (x3 : Vec F S512x1 .f32) (x4 : Vec F S1x512 .f32) :
    sout0_A_0 c i arg3 harg3 arg4 harg4 arg5 harg5 arg6 harg6 arg7 harg7 arg8 harg8 arg9 harg9 hc0 hc1 x0 x1 x2 x3 x4 = k0_pay2 x0 x1 x3 x2 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x512) origin2, View.readCov_unit_zero (S := S512x512) _ origin2]
  simp only [View.readAt_eq_ld, harg3.read_unread, harg4.read_unread, harg5.read_unread, harg6.read_unread, harg7.read_unread, harg9.read_unread, View.ld_unit_zero (S := S512x1024) origin2, View.ld_unit_zero (S := S512x1) origin2, View.ld_unit_zero (S := S1x512) origin2, View.ld_unit_zero (S := S512x512) origin2]

/-- MIDDLE STRETCHES: the stretch's product is added to the total `xs0` the point before left. -/
theorem total_middle (c : Dev nD) (i : grid0.Coords) (arg3 : Memref sig .tc .vmem S512x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x1024 .f32) (x1 : Vec F S512x1024 .i32) (x2 : Vec F S512x1 .f32) (x3 : Vec F S512x1 .f32) (x4 : Vec F S1x512 .f32) (xs0 : Vec F S512x512 .f32) :
    sout0_B_0 c i arg3 harg3 arg4 harg4 arg5 harg5 arg6 harg6 arg7 harg7 arg8 harg8 arg9 harg9 hc0 hc1 x0 x1 x2 x3 x4 xs0 = k0_pay2 x0 x1 x3 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero origin2]
  simp only [View.readAt_eq_ld, harg3.read_unread, harg4.read_unread, harg5.read_unread, harg6.read_unread, harg7.read_unread, harg9.read_unread, View.ld_unit_zero (S := S512x1024) origin2, View.ld_unit_zero (S := S512x1) origin2, View.ld_unit_zero (S := S1x512) origin2, View.ld_unit_zero (S := S512x512) origin2]

/-- LAST STRETCH, the total: again the stretch's product added to the total the point before left. -/
theorem total_last (c : Dev nD) (i : grid0.Coords) (arg3 : Memref sig .tc .vmem S512x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .i32) (x2 : Vec F S512x1 .f32) (x3 : Vec F S512x1 .f32) (x4 : Vec F S1x512 .f32) (xs0 : Vec F S512x512 .f32) :
    sout0_C_0 c i arg3 harg3 arg4 harg4 arg5 harg5 arg6 harg6 arg7 harg7 arg8 harg8 arg9 harg9 hc0 hc1 x0 x1 x2 x3 x4 xs0 = k0_pay2 x0 x1 x3 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero origin2]
  simp only [View.readAt_eq_ld, harg3.read_unread, harg4.read_unread, harg5.read_unread, harg6.read_unread, harg7.read_unread, harg9.read_unread, View.ld_unit_zero (S := S512x1024) origin2, View.ld_unit_zero (S := S512x1) origin2, View.ld_unit_zero (S := S1x512) origin2, View.ld_unit_zero (S := S512x512) origin2]

/-- LAST STRETCH, the output block: the total just formed, plus the bias row `x4` on every row. -/
theorem block_last (c : Dev nD) (i : grid0.Coords) (arg3 : Memref sig .tc .vmem S512x1024 .f32) (harg3 : arg3.IsWhole) (arg4 : Memref sig .tc .vmem S512x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x1024 .f32) (x1 : Vec F S512x1024 .i32) (x2 : Vec F S512x1 .f32) (x3 : Vec F S512x1 .f32) (x4 : Vec F S1x512 .f32) (xs0 : Vec F S512x512 .f32) :
    out0_C_5 c i arg3 harg3 arg4 harg4 arg5 harg5 arg6 harg6 arg7 harg7 arg8 harg8 arg9 harg9 hc0 hc1 x0 x1 x2 x3 x4 xs0 = k0_pay3 (k0_pay2 x0 x1 x3 x2 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero origin2]
  simp only [View.readCov_unit_zero (S := S512x512) _ origin2, View.readAt_eq_ld, harg3.read_unread, harg4.read_unread, harg5.read_unread, harg6.read_unread, harg7.read_unread, harg9.read_unread, View.ld_unit_zero (S := S512x1024) origin2, View.ld_unit_zero (S := S512x1) origin2, View.ld_unit_zero (S := S1x512) origin2, View.ld_unit_zero (S := S512x512) origin2]

end Cert.KernelIdeal.CaseValues

end
-- ==== Proof.StretchProduct.lean ====
/-
  What one grid point contributes, read one entry at a time.

  At a grid point the body holds a 512 × 1024 block of the activations `x`, the 512 × 1024 block of stored integers
  `q` for 512 output channels over the same 1024 features, and those channels' zero points and scales as columns.
  It dequantizes the block, `w c κ = (q[c,κ] − zp[c,0]) · sc[c,0]`, and adds to the running total `acc` the product of
  the activation block with the transposed weight block. Over the extended reals (where a change of float format is the
  identity) entry `(r, c)` of what it stores is
      acc[r,c] + ∑ κ < 1024, x[r,κ] · w c κ.
  The reset stores zeros; the last point of a run adds the channel's bias to every row.
-/
import proofs.«143903_j85804856639527_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StretchProduct

open Cert.KernelIdeal Cert.KernelIdeal.Gen Idealize.ShloMosaic Idealize.ShloMosaic.ValueIdx

/-! ## A column spread along a new axis -/

/-- An `[a, 1]` column broadcast to `[a, b]` reads, at `(p, q)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## The block product's operand indices -/

/-- The left operand is read at the output's row … -/
theorem lhs_row (j : S512x512.Idx) (k : dot_S512x1024_S1024x512_S512x512_1_0_0_1_n_n.contr.Idx) :
    (dot_S512x1024_S1024x512_S512x512_1_0_0_1_n_n.lhsIdx j k 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- … and at the contracted feature. -/
theorem lhs_feature (j : S512x512.Idx) (k : dot_S512x1024_S1024x512_S512x512_1_0_0_1_n_n.contr.Idx) :
    (dot_S512x1024_S1024x512_S512x512_1_0_0_1_n_n.lhsIdx j k 1).val = (k ⟨0, by decide⟩).val :=
  dot_S512x1024_S1024x512_S512x512_1_0_0_1_n_n.lhsIdx_val_of_single rfl j k
/-- The right operand (features × channels) is read at the contracted feature … -/
theorem rhs_feature (j : S512x512.Idx) (k : dot_S512x1024_S1024x512_S512x512_1_0_0_1_n_n.contr.Idx) :
    (dot_S512x1024_S1024x512_S512x512_1_0_0_1_n_n.rhsIdx j k 0).val = (k ⟨0, by decide⟩).val :=
  dot_S512x1024_S1024x512_S512x512_1_0_0_1_n_n.rhsIdx_val_of_single rfl j k
/-- … and at the output's channel. -/
theorem rhs_channel (j : S512x512.Idx) (k : dot_S512x1024_S1024x512_S512x512_1_0_0_1_n_n.contr.Idx) :
    (dot_S512x1024_S1024x512_S512x512_1_0_0_1_n_n.rhsIdx j k 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-! ## The three stored values at an entry -/

/-- The dequantized weight of the block's channel `c` at its feature `κ`. -/
def blockWeight (q : Vec Ideal S512x1024 .i32) (zp sc : Vec Ideal S512x1 .f32) (c : Fin 512) (κ : Fin 1024) : EReal :=
  (FloatOps.sitofp (F := Ideal) .f32 (q (ix2 c κ)) - zp (ix2 c (0 : Fin 1))) * sc (ix2 c (0 : Fin 1))

/-- The reset stores zero at every entry. -/
theorem reset_apply (j : S512x512.Idx) : k0_pay1 (F := Ideal) j = 0 := by
  unfold k0_pay1
  rw [shapeCast_self]
  show Ideal.ofBits .f32 0x00000000#32 = 0
  exact Ideal.ofBits_zero_f32

/-- The dequantized, transposed weight block at (feature, channel). -/
theorem weightT_apply (q : Vec Ideal S512x1024 .i32) (zp sc : Vec Ideal S512x1 .f32) (κ : Fin 1024) (c : Fin 512) :
    transpose S1024x512 [1, 0] (truncf .bf16 (mulf (subf (sitofp .f32 q : FVec Ideal S512x1024 .f32) (broadcastTo S512x1024 zp Facts₀.broadcasts_S512x1_S512x1024))
        (broadcastTo S512x1024 sc Facts₀.broadcasts_S512x1_S512x1024)) Facts₀.bitsLt_bf16_f32 : FVec Ideal S512x1024 .bf16)
        Facts₀.transposes_S512x1024_p1_0_S1024x512 (ix2 κ c)
      = blockWeight q zp sc c κ := by
  rw [transpose_ix2_apply]
  show (FloatOps.sitofp (F := Ideal) .f32 (q (ix2 c κ)) - broadcastTo S512x1024 zp Facts₀.broadcasts_S512x1_S512x1024 (ix2 c κ))
      * broadcastTo S512x1024 sc Facts₀.broadcasts_S512x1_S512x1024 (ix2 c κ) = _
  rw [broadcastTo_column_apply, broadcastTo_column_apply]
  rfl

/-- An accumulating point stores, at entry `(r, c)`, the running total there plus the inner product of the activation
    block's row `r` with the dequantized weights of channel `c` over the block's 1024 features. -/
theorem accumulate_apply (x : Vec Ideal S512x1024 .f32) (q : Vec Ideal S512x1024 .i32) (zp sc : Vec Ideal S512x1 .f32)
    (acc : Vec Ideal S512x512 .f32) (r c : Fin 512) :
    k0_pay2 (F := Ideal) x q zp sc acc (ix2 r c) = acc (ix2 r c) + ∑ κ : Fin 1024, x (ix2 r κ) * blockWeight q zp sc c κ := by
  unfold k0_pay2
  rw [shapeCast_self]
  show acc (ix2 r c) + FloatOps.matmul (F := Ideal) dot_S512x1024_S1024x512_S512x512_1_0_0_1_n_n none _ _ (constant (F := Ideal) S512x512 .f32 0x00000000#32) (ix2 r c) = _
  rw [Ideal.matmul_constant_zero_apply, ← Equiv.sum_comp (contrEquiv1 dot_S512x1024_S1024x512_S512x512_1_0_0_1_n_n 1024 rfl rfl).symm]
  refine congrArg (acc (ix2 r c) + ·) (Finset.sum_congr rfl fun κ _ => ?_)
  have hk := contrEquiv1_symm_val dot_S512x1024_S1024x512_S512x512_1_0_0_1_n_n 1024 rfl rfl κ
  have el : dot_S512x1024_S1024x512_S512x512_1_0_0_1_n_n.lhsIdx (ix2 r c) ((contrEquiv1 dot_S512x1024_S1024x512_S512x512_1_0_0_1_n_n 1024 rfl rfl).symm κ) = ix2 r κ := funext fun a => Fin.ext (by
    match a with
    | ⟨0, _⟩ => exact lhs_row _ _
    | ⟨1, _⟩ => exact (lhs_feature _ _).trans hk)
  have er : dot_S512x1024_S1024x512_S512x512_1_0_0_1_n_n.rhsIdx (ix2 r c) ((contrEquiv1 dot_S512x1024_S1024x512_S512x512_1_0_0_1_n_n 1024 rfl rfl).symm κ) = ix2 κ c := funext fun a => Fin.ext (by
    match a with
    | ⟨0, _⟩ => exact (rhs_feature _ _).trans hk
    | ⟨1, _⟩ => exact rhs_channel _ _)
  rw [el, er, weightT_apply]
  rfl

/-- The last point of a run stores, at entry `(r, c)`, the finished total plus the bias of channel `c`. -/
theorem finish_apply (acc : Vec Ideal S512x512 .f32) (b : Vec Ideal S1x512 .f32) (r c : Fin 512) :
    k0_pay3 (F := Ideal) acc b (ix2 r c) = acc (ix2 r c) + b (ix2 (0 : Fin 1) c) := by
  unfold k0_pay3
  rw [shapeCast_self]
  show acc (ix2 r c) + broadcastTo S512x512 b Facts₀.broadcasts_S1x512_S512x512 (ix2 r c) = _
  rw [broadcastTo_1b_ab_apply]

end Cert.KernelIdeal.StretchProduct

end
-- ==== Proof.BlockReads.lean ====
/-
  Where each block of the grid sits in its array.

  The grid has 16 × 8 × 4 points; point `t` stands for row block `t / 32` of the activations and of the result, channel
  block `t / 4 % 8` of the weights, their scales, zero points and bias, and feature stretch `t % 4`. A block's entry
  at `(r, κ)` is therefore the array's entry at (block index · block extent + r, block index · block extent + κ) on each axis.
  The bias reaches the kernel as a `1 × 4096` row, the argument vector viewed with a leading unit axis.
-/
import proofs.«143903_j85804856639527_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockReads

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The grid has 512 points. -/
theorem point_lt (t : Fin cfg0.N) : t.val < 512 := lt_of_lt_of_eq t.isLt (show cfg0.N = 512 from N_0)

/-- The printed index maps, decided over the grid: which block of its array each window holds at point `t`. -/
theorem block_indices : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = 0
    ∧ win0_3.index t (0 : Fin 2) = t.val / 4 % 8 ∧ win0_3.index t (1 : Fin 2) = 0
    ∧ win0_4.index t (0 : Fin 2) = 0 ∧ win0_4.index t (1 : Fin 2) = t.val / 4 % 8
    ∧ win0_5.index t (0 : Fin 2) = t.val / 32 ∧ win0_5.index t (1 : Fin 2) = t.val / 4 % 8 :=
  (by decide +kernel : ∀ t : Fin grid0.N, _)

/-! ## The blocks and the arrays, at their literal types -/

abbrev xBlock (c : Dev nD) (t : Fin cfg0.N) : Vec F S512x1024 .f32 := iblk m c 0 t
abbrev qBlock (c : Dev nD) (t : Fin cfg0.N) : Vec F S512x1024 .i32 := iblk m c 1 t
abbrev scBlock (c : Dev nD) (t : Fin cfg0.N) : Vec F S512x1 .f32 := iblk m c 2 t
abbrev zpBlock (c : Dev nD) (t : Fin cfg0.N) : Vec F S512x1 .f32 := iblk m c 3 t
abbrev biasBlock (c : Dev nD) (t : Fin cfg0.N) : Vec F S1x512 .f32 := iblk m c 4 t

abbrev xArr (c : Dev nD) : Vec F S8192x4096 .f32 := V m c main_arg0
abbrev qArr (c : Dev nD) : Vec F S4096x4096 .i32 := V m c main_arg1
abbrev scArr (c : Dev nD) : Vec F S4096x1 .f32 := V m c main_arg2
abbrev zpArr (c : Dev nD) : Vec F S4096x1 .f32 := V m c main_arg3
abbrev biasArr (c : Dev nD) : Vec F S4096 .f32 := V m c main_arg4
abbrev biasRow (c : Dev nD) : Vec F S1x4096 .f32 := V m c main_v0

/-! ## A block's entry is the array's entry at the block's offset -/

/-- The activation block of point `t`: rows from `512 · (t / 32)`, features from `1024 · (t % 4)`. -/
theorem xBlock_apply (c : Dev nD) (t : Fin cfg0.N) (r : Fin 512) (κ : Fin 1024) (R : Fin 8192) (K : Fin 4096)
    (hR : R.val = t.val / 32 * 512 + r.val) (hK : K.val = t.val % 4 * 1024 + κ.val) :
    xBlock m c t (@ix2 512 1024 r κ) = xArr m c (@ix2 8192 4096 R K) := by
  obtain ⟨e0, e1, -⟩ := block_indices t
  show V m c main_arg0 (((cfg0.win 0).blk t).view.emb (@ix2 512 1024 r κ)) = V m c main_arg0 (@ix2 8192 4096 R K)
  have h : ((cfg0.win 0).blk t).view.emb (@ix2 512 1024 r κ) = @ix2 8192 4096 R K := by
    funext a; apply Fin.ext
    match a with
    | ⟨0, _⟩ => show win0_0.index t (0 : Fin 2) * 512 + 1 * r.val = R.val; rw [e0, hR]; omega
    | ⟨1, _⟩ => show win0_0.index t (1 : Fin 2) * 1024 + 1 * κ.val = K.val; rw [e1, hK]; omega
  rw [h]

/-- The stored-integer block of point `t`: channels from `512 · (t / 4 % 8)`, features from `1024 · (t % 4)`. -/
theorem qBlock_apply (c : Dev nD) (t : Fin cfg0.N) (n : Fin 512) (κ : Fin 1024) (C K : Fin 4096)
    (hC : C.val = t.val / 4 % 8 * 512 + n.val) (hK : K.val = t.val % 4 * 1024 + κ.val) :
    qBlock m c t (@ix2 512 1024 n κ) = qArr m c (@ix2 4096 4096 C K) := by
  obtain ⟨-, -, e0, e1, -⟩ := block_indices t
  show V m c main_arg1 (((cfg0.win 1).blk t).view.emb (@ix2 512 1024 n κ)) = V m c main_arg1 (@ix2 4096 4096 C K)
  have h : ((cfg0.win 1).blk t).view.emb (@ix2 512 1024 n κ) = @ix2 4096 4096 C K := by
    funext a; apply Fin.ext
    match a with
    | ⟨0, _⟩ => show win0_1.index t (0 : Fin 2) * 512 + 1 * n.val = C.val; rw [e0, hC]; omega
    | ⟨1, _⟩ => show win0_1.index t (1 : Fin 2) * 1024 + 1 * κ.val = K.val; rw [e1, hK]; omega
  rw [h]

/-- The scale block of point `t`: the channels from `512 · (t / 4 % 8)`, in the arrays' one column. -/
theorem scBlock_apply (c : Dev nD) (t : Fin cfg0.N) (n : Fin 512) (C : Fin 4096)
    (hC : C.val = t.val / 4 % 8 * 512 + n.val) :
    scBlock m c t (@ix2 512 1 n 0) = scArr m c (@ix2 4096 1 C 0) := by
  obtain ⟨-, -, -, -, e0, e1, -⟩ := block_indices t
  show V m c main_arg2 (((cfg0.win 2).blk t).view.emb (@ix2 512 1 n 0)) = V m c main_arg2 (@ix2 4096 1 C 0)
  have h : ((cfg0.win 2).blk t).view.emb (@ix2 512 1 n 0) = @ix2 4096 1 C 0 := by
    funext a; apply Fin.ext
    match a with
    | ⟨0, _⟩ => show win0_2.index t (0 : Fin 2) * 512 + 1 * n.val = C.val; rw [e0, hC]; omega
    | ⟨1, _⟩ => show win0_2.index t (1 : Fin 2) * 1 + 1 * 0 = 0; rw [e1]
  rw [h]

/-- The zero-point block of point `t`, likewise. -/
theorem zpBlock_apply (c : Dev nD) (t : Fin cfg0.N) (n : Fin 512) (C : Fin 4096)
    (hC : C.val = t.val / 4 % 8 * 512 + n.val) :
    zpBlock m c t (@ix2 512 1 n 0) = zpArr m c (@ix2 4096 1 C 0) := by
  obtain ⟨-, -, -, -, -, -, e0, e1, -⟩ := block_indices t
  show V m c main_arg3 (((cfg0.win 3).blk t).view.emb (@ix2 512 1 n 0)) = V m c main_arg3 (@ix2 4096 1 C 0)
  have h : ((cfg0.win 3).blk t).view.emb (@ix2 512 1 n 0) = @ix2 4096 1 C 0 := by
    funext a; apply Fin.ext
    match a with
    | ⟨0, _⟩ => show win0_3.index t (0 : Fin 2) * 512 + 1 * n.val = C.val; rw [e0, hC]; omega
    | ⟨1, _⟩ => show win0_3.index t (1 : Fin 2) * 1 + 1 * 0 = 0; rw [e1]
  rw [h]

/-- The bias block of point `t`: the channels from `512 · (t / 4 % 8)` of the bias row. -/
theorem biasBlock_apply (c : Dev nD) (t : Fin cfg0.N) (n : Fin 512) (C : Fin 4096)
    (hC : C.val = t.val / 4 % 8 * 512 + n.val) :
    biasBlock m c t (@ix2 1 512 0 n) = biasRow m c (@ix2 1 4096 0 C) := by
  obtain ⟨-, -, -, -, -, -, -, -, e0, e1, -⟩ := block_indices t
  show V m c main_v0 (((cfg0.win 4).blk t).view.emb (@ix2 1 512 0 n)) = V m c main_v0 (@ix2 1 4096 0 C)
  have h : ((cfg0.win 4).blk t).view.emb (@ix2 1 512 0 n) = @ix2 1 4096 0 C := by
    funext a; apply Fin.ext
    match a with
    | ⟨0, _⟩ => show win0_4.index t (0 : Fin 2) * 1 + 1 * 0 = 0; rw [e0]
    | ⟨1, _⟩ => show win0_4.index t (1 : Fin 2) * 512 + 1 * n.val = C.val; rw [e1, hC]; omega
  rw [h]

/-- The bias row the region finds is the bias vector with a leading unit axis. -/
theorem biasRow_apply (c : Dev nD) (C : Fin 4096) : biasRow m c (@ix2 1 4096 0 C) = biasArr m c (@ix1 4096 C) := by
  have e : (V m c main_v0 : S1x4096.Idx → Elt F .f32) = shapeCast S1x4096 (m ((c : Thread nD τ).loc main_arg4)) Facts₀.shapeCasts_S4096_S1x4096 := by
    dsimp only [V, hostOps0]; after_results; rfl
  show V m c main_v0 (@ix2 1 4096 0 C) = V m c main_arg4 (@ix1 4096 C)
  rw [e, V_main_arg4, shapeCast_a_1a_apply]

end Cert.KernelIdeal.BlockReads

end
-- ==== Proof.RunningTotal.lean ====
/-
  The running total, point by point.

  Along a run of four consecutive grid points (one output block, the four feature stretches in order) the total starts
  as "zeros plus the first stretch's product" and each later point adds its own stretch's product. Unrolled, the total
  the last point of the run holds is zero plus the sum of the four stretch products, entry by entry: a plain finite sum
  in a commutative monoid, whatever the entries are.
-/
import proofs.«143903_j85804856639527_1_alg».proof.Proof.Gen.KernelIdeal.Value
import proofs.«143903_j85804856639527_1_alg».proof.Proof.CaseValues
import proofs.«143903_j85804856639527_1_alg».proof.Proof.StretchProduct
import proofs.«143903_j85804856639527_1_alg».proof.Proof.BlockReads

noncomputable section

open scoped BigOperators

namespace Cert.KernelIdeal.RunningTotal

open Cert.KernelIdeal Cert.KernelIdeal.Gen Cert.KernelIdeal.Value Cert.KernelIdeal.CaseValues
open Cert.KernelIdeal.StretchProduct Cert.KernelIdeal.BlockReads
open Idealize.ShloMosaic Idealize.ShloMosaic.TcCoe Idealize.SL.Sem Idealize.ShloMosaic.ValueIdx

variable (m : (ℓ : Loc nD τ sig) → Buf (Elt Ideal) ℓ)

/-- What point `n` adds to the total at an entry: the inner product, over the point's 1024 features, of its activation
    block's row with its dequantized weight block's channel (nothing past the grid). -/
def addend (c : Dev nD) (n : ℕ) : S512x512.Idx → EReal := fun j =>
  if h : n < cfg0.N then
    ∑ κ : Fin 1024, xBlock m c ⟨n, h⟩ (@ix2 512 1024 (j 0) κ)
      * blockWeight (qBlock m c ⟨n, h⟩) (zpBlock m c ⟨n, h⟩) (scBlock m c ⟨n, h⟩) (j 1) κ
  else 0

/-- At the first stretch of a run the point leaves the stretch's product added to zeros, whatever it found. -/
theorem step_first (c : Dev nD) (n : ℕ) (hb : n < cfg0.N) (h0 : n % 4 = 0) (acc : Vec Ideal S512x512 .f32) :
    scAt0_0 m c n hb acc
      = k0_pay2 (xBlock m c ⟨n, hb⟩) (qBlock m c ⟨n, hb⟩) (zpBlock m c ⟨n, hb⟩) (scBlock m c ⟨n, hb⟩) (k0_pay1 (F := Ideal)) := by
  have h1 : ¬n % 4 = 3 := by omega
  unfold scAt0_0
  rw [dif_pos h0, dif_neg h1]
  exact total_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- At every later stretch the point leaves the stretch's product added to the total it found. -/
theorem step_later (c : Dev nD) (n : ℕ) (hb : n < cfg0.N) (h0 : ¬n % 4 = 0) (acc : Vec Ideal S512x512 .f32) :
    scAt0_0 m c n hb acc
      = k0_pay2 (xBlock m c ⟨n, hb⟩) (qBlock m c ⟨n, hb⟩) (zpBlock m c ⟨n, hb⟩) (scBlock m c ⟨n, hb⟩) acc := by
  unfold scAt0_0
  rw [dif_neg h0]
  by_cases h1 : n % 4 = 3
  · rw [dif_pos h1]
    exact total_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact total_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- A stored total at an entry: what was there plus the point's addend. -/
theorem stored_apply (c : Dev nD) (n : ℕ) (hb : n < cfg0.N) (acc : Vec Ideal S512x512 .f32) (j : S512x512.Idx) :
    k0_pay2 (xBlock m c ⟨n, hb⟩) (qBlock m c ⟨n, hb⟩) (zpBlock m c ⟨n, hb⟩) (scBlock m c ⟨n, hb⟩) acc j
      = acc j + addend m c n j := by
  obtain ⟨r, q, rfl⟩ : ∃ (r q : Fin 512), j = @ix2 512 512 r q := ⟨j 0, j 1, eq_ix2 j⟩
  rw [accumulate_apply]
  unfold addend
  rw [dif_pos hb]

/-- THE TOTAL AT THE END OF A RUN: at the run's last point (`t % 4 = 3`) the running total is zero plus the four
    stretches' addends, those of points `4·(t / 4) … 4·(t / 4) + 3`. -/
theorem total_at_last (c : Dev nD) (t : Fin cfg0.N) (h3 : t.val % 4 = 3) (j : S512x512.Idx) :
    (outsAt0 m c t.val t.isLt).2 j = 0 + ∑ s ∈ Finset.range 4, addend m c (4 * (t.val / 4) + s) j := by
  have unrolled : ∀ (k : ℕ) (_ : k ≤ 3) (h : 4 * (t.val / 4) + k < cfg0.N),
      Pipeline.accAt (fun n h => scAt0_0 m c n h (VS0_0.read (Elt Ideal) VS0_0.junk)) (scAt0_0 m c) (4 * (t.val / 4)) k h j
        = 0 + ∑ s ∈ Finset.range (k + 1), addend m c (4 * (t.val / 4) + s) j := fun k hk h =>
    Pipeline.accAt_add_apply (fun n h => scAt0_0 m c n h (VS0_0.read (Elt Ideal) VS0_0.junk)) (scAt0_0 m c)
      (fun _ => (0 : EReal)) (addend m c) (4 * (t.val / 4)) 3
      (fun h i => by
        show scAt0_0 m c (4 * (t.val / 4)) h (VS0_0.read (Elt Ideal) VS0_0.junk) i = 0 + addend m c (4 * (t.val / 4)) i
        rw [step_first m c _ h (by omega), stored_apply, reset_apply])
      (fun n h acc i hlo hhi => by
        show scAt0_0 m c n h acc i = acc i + addend m c n i
        rw [step_later m c n h (by omega), stored_apply])
      k hk h j
  rw [soutsAt0_0_eq, unrolled (t.val % 4) (by omega), h3]

/-- … and that total is the last stretch's product added to the total of the point before. -/
theorem total_eq_step (c : Dev nD) (t : Fin cfg0.N) (h0 : ¬t.val % 4 = 0) (h3 : t.val % 4 = 3) :
    (outsAt0 m c t.val t.isLt).2
      = k0_pay2 (xBlock m c t) (qBlock m c t) (zpBlock m c t) (scBlock m c t)
          (outsAt0 m c (t.val - 1) (Nat.lt_of_le_of_lt (Nat.sub_le _ _) t.isLt)).2 := by
  rw [outsAt0_C m c t h0 h3]
  dsimp only
  exact total_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2

end Cert.KernelIdeal.RunningTotal

end
-- ==== Proof.ResultArray.lean ====
/-
  The result array after the run is the layer's function of the arguments.

  The output block of grid point `t` is written back only at the last stretch of its run (`t % 4 = 3`); what is written
  there is the finished total plus the bias row. Entry `(r, q)` of that block is entry (512·(t / 32) + r,
  512·(t / 4 % 8) + q) of the result: the total's four stretch products are the inner product over features
  `1024·s … 1024·s + 1023` for `s = 0, 1, 2, 3`, which together are the inner product over all 4096 features, by cutting
  the sum into consecutive stretches. The 16 × 8 output blocks tile the result, so every entry is written.
-/
import proofs.«143903_j85804856639527_1_alg».proof.Proof.RunningTotal
import proofs.«143903_j85804856639527_1_alg».proof.Proof.DequantLinear

noncomputable section

open scoped BigOperators

namespace Cert.KernelIdeal.ResultArray

open Cert.KernelIdeal Cert.KernelIdeal.Gen Cert.KernelIdeal.Value Cert.KernelIdeal.CaseValues
open Cert.KernelIdeal.StretchProduct Cert.KernelIdeal.BlockReads Cert.KernelIdeal.RunningTotal Cert.DequantLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's function of the arrays as the region finds them. -/
abbrev layer (c : Dev nD) : S8192x4096.Idx → EReal :=
  linear (xArr m c) (qArr m c) (scArr m c) (zpArr m c) (biasArr m c)

/-- Stretch `s` of the run that ends at point `t`: its addend at block entry `(r, q)` is the inner product of the
    result row's activations with the result channel's weights over the features of stretch `s`. -/
theorem addend_eq (c : Dev nD) (t : Fin cfg0.N) (h3 : t.val % 4 = 3) (s : Fin 4) (r q : Fin 512) (R : Fin 8192) (C : Fin 4096)
    (hR : R.val = t.val / 32 * 512 + r.val) (hC : C.val = t.val / 4 % 8 * 512 + q.val) :
    addend m c (4 * (t.val / 4) + s.val) (@ix2 512 512 r q)
      = ∑ κ : Fin 1024, xArr m c (@ix2 8192 4096 R (inStretch (A := 4) (B := 1024) s κ))
          * weight (qArr m c) (scArr m c) (zpArr m c) C (inStretch (A := 4) (B := 1024) s κ) := by
  have ht := point_lt t
  have hs := s.isLt
  have hp : 4 * (t.val / 4) + s.val < cfg0.N := lt_of_lt_of_eq (by omega : 4 * (t.val / 4) + s.val < 512) (show cfg0.N = 512 from N_0).symm
  have e32 : (4 * (t.val / 4) + s.val) / 32 = t.val / 32 := by omega
  have e8 : (4 * (t.val / 4) + s.val) / 4 % 8 = t.val / 4 % 8 := by omega
  have e4 : (4 * (t.val / 4) + s.val) % 4 = s.val := by omega
  unfold addend
  rw [dif_pos hp]
  refine Finset.sum_congr rfl fun κ _ => ?_
  have hκ := κ.isLt
  have hK : (inStretch (A := 4) (B := 1024) s κ).val = (4 * (t.val / 4) + s.val) % 4 * 1024 + κ.val := by
    rw [e4, inStretch_val]; omega
  have hR' : R.val = (4 * (t.val / 4) + s.val) / 32 * 512 + r.val := by rw [e32, hR]
  have hC' : C.val = (4 * (t.val / 4) + s.val) / 4 % 8 * 512 + q.val := by rw [e8, hC]
  show xBlock m c ⟨4 * (t.val / 4) + s.val, hp⟩ (@ix2 512 1024 r κ)
      * blockWeight (qBlock m c ⟨4 * (t.val / 4) + s.val, hp⟩) (zpBlock m c ⟨4 * (t.val / 4) + s.val, hp⟩) (scBlock m c ⟨4 * (t.val / 4) + s.val, hp⟩) q κ = _
  rw [xBlock_apply m c ⟨4 * (t.val / 4) + s.val, hp⟩ r κ R (inStretch (A := 4) (B := 1024) s κ) hR' hK]
  unfold blockWeight weight
  rw [qBlock_apply m c ⟨4 * (t.val / 4) + s.val, hp⟩ q κ C (inStretch (A := 4) (B := 1024) s κ) hC' hK,
    zpBlock_apply m c ⟨4 * (t.val / 4) + s.val, hp⟩ q C hC', scBlock_apply m c ⟨4 * (t.val / 4) + s.val, hp⟩ q C hC']

/-- What the last point of a run stores in the output block, at block entry `(r, q)`, is the layer's result at the
    entry of the result array that block entry stands for. -/
theorem stored_block_apply (c : Dev nD) (t : Fin cfg0.N) (h3 : t.val % 4 = 3) (r q : Fin 512) (R : Fin 8192) (C : Fin 4096)
    (hR : R.val = t.val / 32 * 512 + r.val) (hC : C.val = t.val / 4 % 8 * 512 + q.val) :
    k0_pay3 (F := Ideal) (outsAt0 m c t.val t.isLt).2 (biasBlock m c t) (@ix2 512 512 r q) = layer m c (@ix2 8192 4096 R C) := by
  rw [finish_apply, total_at_last m c t h3, zero_add,
    Finset.sum_range (fun s => addend m c (4 * (t.val / 4) + s) (@ix2 512 512 r q))]
  show (∑ s : Fin 4, addend m c (4 * (t.val / 4) + s.val) (@ix2 512 512 r q)) + biasBlock m c t (@ix2 1 512 0 q)
    = (∑ k : Fin 4096, xArr m c (@ix2 8192 4096 R k) * weight (qArr m c) (scArr m c) (zpArr m c) C k) + biasArr m c (@ix1 4096 C)
  rw [sum_four_stretches, biasBlock_apply m c t q C hC, biasRow_apply]
  exact congrArg (· + biasArr m c (@ix1 4096 C)) (Finset.sum_congr rfl fun s _ => addend_eq m c t h3 s r q R C hR hC)

/-- WHAT A WRITING POINT WRITES BACK is its block of the layer's result. -/
theorem flushed_eq (c : Dev nD) (t : Fin cfg0.N) (hf : (cfg0.win 5).flush t = true) :
    (dats m 0 c).flushed 5 t = ((cfg0.win 5).blk t).view.read (Elt Ideal) (layer m c) := by
  have h3 : t.val % 4 = 3 := (flush0_5 t).mp hf
  have h0 : ¬t.val % 4 = 0 := by omega
  have ht := point_lt t
  rw [flushed5_C m c t h0 h3,
    block_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2]
  have hstep := total_eq_step m c t h0 h3
  obtain ⟨-, -, -, -, -, -, -, -, -, -, e0, e1⟩ := block_indices t
  funext y
  have hy0 : (y 0).val < 512 := (y 0).isLt
  have hy1 : (y 1).val < 512 := (y 1).isLt
  have hy : y = @ix2 512 512 ⟨(y 0).val, hy0⟩ ⟨(y 1).val, hy1⟩ := by
    funext a; match a with | ⟨0, _⟩ => rfl | ⟨1, _⟩ => rfl
  show k0_pay3 (F := Ideal) (k0_pay2 (xBlock m c t) (qBlock m c t) (zpBlock m c t) (scBlock m c t)
      (outsAt0 m c (t.val - 1) (Nat.lt_of_le_of_lt (Nat.sub_le _ _) t.isLt)).2) (biasBlock m c t) y
    = layer m c (((cfg0.win 5).blk t).view.emb y)
  rw [← hstep]
  have hemb : ((cfg0.win 5).blk t).view.emb y
      = @ix2 8192 4096 ⟨t.val / 32 * 512 + (y 0).val, by omega⟩ ⟨t.val / 4 % 8 * 512 + (y 1).val, by omega⟩ := by
    funext a; apply Fin.ext
    match a with
    | ⟨0, _⟩ => show win0_5.index t (0 : Fin 2) * 512 + 1 * (y 0).val = t.val / 32 * 512 + (y 0).val; rw [e0]; omega
    | ⟨1, _⟩ => show win0_5.index t (1 : Fin 2) * 512 + 1 * (y 1).val = t.val / 4 % 8 * 512 + (y 1).val; rw [e1]; omega
  rw [hemb]
  refine Eq.trans (congrArg (k0_pay3 (F := Ideal) (outsAt0 m c t.val t.isLt).2 (biasBlock m c t)) hy) ?_
  exact stored_block_apply m c t h3 ⟨(y 0).val, hy0⟩ ⟨(y 1).val, hy1⟩ _ _ rfl rfl

/-- An entry of the result is in point `t`'s output block iff each coordinate is in the block's range on its axis. -/
theorem mem_block (t : Fin cfg0.N) (i : S8192x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v1).slice (win0_5.rect t)).set ↔ _
  rw [View.set_slice_whole, Rect.mem_set_unit]
  exact Iff.rfl

/-- Every entry of the result lies in the output block of a writing point: the last point of the run for its row
    block and channel block. -/
theorem covered (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 512 := N_0
  have hlt : ((i 0).val / 512 * 8 + (i 1).val / 512) * 4 + 3 < cfg0.N := by rw [hN]; omega
  refine ⟨⟨((i 0).val / 512 * 8 + (i 1).val / 512) * 4 + 3, hlt⟩, (flush0_5 _).mpr (by show (((i 0).val / 512 * 8 + (i 1).val / 512) * 4 + 3) % 4 = 3; omega), ?_⟩
  rw [mem_block]
  obtain ⟨-, -, -, -, -, -, -, -, -, -, e0, e1⟩ := block_indices ⟨((i 0).val / 512 * 8 + (i 1).val / 512) * 4 + 3, hlt⟩
  intro a
  match a with
  | ⟨0, _⟩ =>
    show win0_5.index ⟨((i 0).val / 512 * 8 + (i 1).val / 512) * 4 + 3, hlt⟩ (0 : Fin 2) * 512 ≤ (i 0).val
      ∧ (i 0).val < win0_5.index ⟨((i 0).val / 512 * 8 + (i 1).val / 512) * 4 + 3, hlt⟩ (0 : Fin 2) * 512 + 512
    rw [e0]
    show (((i 0).val / 512 * 8 + (i 1).val / 512) * 4 + 3) / 32 * 512 ≤ (i 0).val
      ∧ (i 0).val < (((i 0).val / 512 * 8 + (i 1).val / 512) * 4 + 3) / 32 * 512 + 512
    omega
  | ⟨1, _⟩ =>
    show win0_5.index ⟨((i 0).val / 512 * 8 + (i 1).val / 512) * 4 + 3, hlt⟩ (1 : Fin 2) * 512 ≤ (i 1).val
      ∧ (i 1).val < win0_5.index ⟨((i 0).val / 512 * 8 + (i 1).val / 512) * 4 + 3, hlt⟩ (1 : Fin 2) * 512 + 512
    rw [e1]
    show (((i 0).val / 512 * 8 + (i 1).val / 512) * 4 + 3) / 4 % 8 * 512 ≤ (i 1).val
      ∧ (i 1).val < (((i 0).val / 512 * 8 + (i 1).val / 512) * 4 + 3) / 4 % 8 * 512 + 512
    omega

/-- THE RESULT ARRAY after the run is the layer's function of the arguments as launched. -/
theorem final (c : Dev nD) :
    (dats m 0 c).arrAt 5 cfg0.N
      = linear (m ((c : Thread nD τ).loc main_arg0)) (m ((c : Thread nD τ).loc main_arg1)) (m ((c : Thread nD τ).loc main_arg2))
          (m ((c : Thread nD τ).loc main_arg3)) (m ((c : Thread nD τ).loc main_arg4)) := by
  rw [(dats m 0 c).arrAt_eq_of_cover 5 (layer m c) (fun t hf => flushed_eq m c t hf) covered]
  show linear (V m c main_arg0) (V m c main_arg1) (V m c main_arg2) (V m c main_arg3) (V m c main_arg4) = _
  rw [V_main_arg0, V_main_arg1, V_main_arg2, V_main_arg3, V_main_arg4]

/-- The kernel's run, with the result array named as the layer's function of the arguments. -/
theorem run : θ_run defs (onTc (τ := τ) (main (F := Ideal))) ⟨m, fun _ => 0, ρ⟩ fun r => ∀ c : Dev nD,
      r.2.mem ((c : Thread nD τ).loc main_v1)
        = linear (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ResultArray

end
-- ==== Proof.lean ====
/- The kernel and its reference compute one linear layer over weights dequantized on the fly,
       y[r,n] = (∑ k < 4096, x[r,k] · ((q[n,k] − zero_point[n,0]) · scale[n,0])) + bias[n],
   and are equal entry by entry over the extended reals.

   The reference dequantizes the whole 4096 × 4096 matrix, contracts the activations with it over all 4096 features in
   one product and adds the bias. The kernel tiles the result into 16 × 8 blocks of 512 × 512 and, for each block, walks the
   features in four stretches of 1024: it zeroes a running total at the first stretch, adds each stretch's partial
   product (the activation block times the transposed, dequantized weight block) to it, and at the last stretch writes
   the total plus the bias row. A change of float format is the identity over the extended reals, so the only difference
   between the two is the order of additions: one sum over 4096 features against four consecutive partial sums added
   to zero. A finite sum in a commutative monoid may be cut into consecutive stretches, and the extended reals under
   `+` are one; no entry needs to be finite, so the precondition is never opened.

   The three programs' frames are their runs with the results dropped; the idealization rewrote nothing. -/
import proofs.«143903_j85804856639527_1_alg».proof.Defs
import proofs.«143903_j85804856639527_1_alg».proof.Proof.Gen.Kernel
import proofs.«143903_j85804856639527_1_alg».proof.Proof.Gen.Kernel.Skeleton
import proofs.«143903_j85804856639527_1_alg».proof.Proof.Gen.Kernel.Launch
import proofs.«143903_j85804856639527_1_alg».proof.Proof.Gen.Kernel.Points
import proofs.«143903_j85804856639527_1_alg».proof.Proof.Gen.Kernel.Frame
import proofs.«143903_j85804856639527_1_alg».proof.Proof.Gen.KernelIdeal
import proofs.«143903_j85804856639527_1_alg».proof.Proof.Gen.KernelIdeal.Skeleton
import proofs.«143903_j85804856639527_1_alg».proof.Proof.Gen.KernelIdeal.Launch
import proofs.«143903_j85804856639527_1_alg».proof.Proof.Gen.KernelIdeal.Points
import proofs.«143903_j85804856639527_1_alg».proof.Proof.Gen.KernelIdeal.Frame
import proofs.«143903_j85804856639527_1_alg».proof.Proof.Gen.ReferenceIdeal
import proofs.«143903_j85804856639527_1_alg».proof.Proof.Gen.Pre_finite_inputs
import proofs.«143903_j85804856639527_1_alg».proof.Proof.Gen.KernelIdeal.Value
import proofs.«143903_j85804856639527_1_alg».proof.Proof.Gen.ReferenceIdeal.Run
import proofs.«143903_j85804856639527_1_alg».proof.Proof.Gen.ReferenceIdeal.Read
import proofs.«143903_j85804856639527_1_alg».proof.Proof.ReferenceIsLinear
import proofs.«143903_j85804856639527_1_alg».proof.Proof.ResultArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's function of the five arguments in their result array: the kernel block by block
    through its running totals, the reference in one contraction; the arguments agree, so the results do. -/
theorem algebraic : Cert.algebraic_KernelIdeal_ReferenceIdeal := by
  intro m ρ m' ρ' _ hagree
  refine ⟨fun c => Cert.DequantLinear.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.ResultArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
